-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_cst) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .hbm, ⟨6, _⟩ => ⟨S_, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_6 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  h_S400x128 : 0 < S400x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSumAssoc.lean ====
/-
  Re-association of a double sum of products over the extended reals, for entries that are real numbers — the entrywise
  content of (a · X) · w = a · (X · w) for a row a, a matrix X and a column w, over ANY finite index types.

  Over the extended reals a factor may not be moved across a sum in general (∞ − ∞), so the law is proved on ℝ and carried
  over by the coercion, which passes through finite sums and products.
-/
import Idealize.ShloMosaic.PureOps.Ideal
import Idealize.ShloMosaic.PureOps.Ideal.Laws

noncomputable section

namespace Cert.LibSumAssoc

/-- The coercion ℝ → EReal passes through a finite sum (it is an additive homomorphism). -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- One entry of (a · X) · w against a · (X · w), for a row a, a matrix X and a column w of reals: both are the double sum
    Σ_j Σ_k a_j · X_jk · w_k. -/
theorem real_row_assoc {J K : Type*} [Fintype J] [Fintype K] (a : J → ℝ) (x : J → K → ℝ) (w : K → ℝ) :
    ∑ k, (∑ j, a j * x j k) * w k = ∑ j, a j * ∑ k, x j k * w k := by
  simp only [Finset.sum_mul, Finset.mul_sum]
  rw [Finset.sum_comm]
  exact Finset.sum_congr rfl fun j _ => Finset.sum_congr rfl fun k _ => mul_assoc _ _ _

/-- The same over the extended reals, for entries that are all real numbers: Σ_k (Σ_j a_j · X_jk) · w_k = Σ_j a_j · (Σ_k X_jk · w_k). -/
theorem row_assoc {J K : Type*} [Fintype J] [Fintype K] (a : J → EReal) (x : J → K → EReal) (w : K → EReal)
    (ha : ∀ j, ∃ v : ℝ, a j = v) (hx : ∀ j k, ∃ v : ℝ, x j k = v) (hw : ∀ k, ∃ v : ℝ, w k = v) :
    ∑ k, (∑ j, a j * x j k) * w k = ∑ j, a j * ∑ k, x j k * w k := by
  choose a' ha using ha
  choose x' hx using hx
  choose w' hw using hw
  simp only [ha, hx, hw, ← EReal.coe_mul, ← coe_sum]
  exact congrArg _ (real_row_assoc a' x' w')

end Cert.LibSumAssoc

end
-- ==== Proof.GcnLayer.lean ====
/-
  The dense graph-convolution layer with a residual, as ONE function of its four arrays over the extended reals,
  written in the two arrangements the two programs compute:

    aggregate-then-project   out[r, q] = (x[r, q] + b[q]) + Σ_k (Σ_j adj[r, j] · x[j, k]) · W[k, q]
    project-then-aggregate   out[r, q] = x[r, q] + ((Σ_j adj[r, j] · (Σ_k x[j, k] · W[k, q])) + b[q])

  The two agree when x, adj and W hold real numbers: the double sum Σ_k Σ_j adj[r, j] · x[j, k] · W[k, q] may be taken
  in either order and a factor may be moved across a finite sum of REALS (over the extended reals it may not: ∞ − ∞); that
  law, over abstract finite index types, is the module this one imports.
  The bias needs no such assumption: + is commutative and associative on all extended reals.
-/
import proofs.«131385_g28544352649385_cont_9to1_800_17_alg».proof.Proof.LibSumAssoc
import Idealize.ShloMosaic.PureOps.Ideal
import Idealize.ShloMosaic.PureOps.Ideal.Laws
import Idealize.ShloMosaic.Lib.ValueIdx

noncomputable section

namespace Cert.GcnLayer

open Idealize.ShloMosaic Idealize.ShloMosaic.ValueIdx

/-! ## The layer, over the literal shapes -/

abbrev Sx : Shape := ⟨2, ![10000, 128]⟩
abbrev Sadj : Shape := ⟨2, ![10000, 10000]⟩
abbrev Sw : Shape := ⟨2, ![128, 128]⟩
abbrev Sb : Shape := ⟨1, ![128]⟩

/-- Aggregate the neighbours' features first, then project: what a row block of the fused kernel computes. -/
def aggregateThenProject (x : Sx.Idx → EReal) (adj : Sadj.Idx → EReal) (W : Sw.Idx → EReal) (b : Sb.Idx → EReal) : Sx.Idx → EReal :=
  fun i => (x i + b (ix1 (i 1)))
    + ∑ k : Fin 128, (∑ j : Fin 10000, adj (ix2 (i 0) j) * x (ix2 j k)) * W (ix2 k (i 1))

/-- Project every node's features first, then aggregate: the layer as the reference writes it. -/
def projectThenAggregate (x : Sx.Idx → EReal) (adj : Sadj.Idx → EReal) (W : Sw.Idx → EReal) (b : Sb.Idx → EReal) : Sx.Idx → EReal :=
  fun i => x i
    + ((∑ j : Fin 10000, adj (ix2 (i 0) j) * ∑ k : Fin 128, x (ix2 j k) * W (ix2 k (i 1))) + b (ix1 (i 1)))

/-- On real features, adjacency weights and projection weights the two arrangements are one function (any bias). -/
theorem aggregateThenProject_eq (x : Sx.Idx → EReal) (adj : Sadj.Idx → EReal) (W : Sw.Idx → EReal) (b : Sb.Idx → EReal)
    (hx : ∀ i, ∃ v : ℝ, x i = v) (hadj : ∀ i, ∃ v : ℝ, adj i = v) (hW : ∀ i, ∃ v : ℝ, W i = v) :
    aggregateThenProject x adj W b = projectThenAggregate x adj W b := by
  funext i
  unfold aggregateThenProject projectThenAggregate
  rw [Cert.LibSumAssoc.row_assoc (fun j : Fin 10000 => adj (ix2 (i 0) j)) (fun (j : Fin 10000) (k : Fin 128) => x (ix2 j k))
      (fun k : Fin 128 => W (ix2 k (i 1))) (fun j => hadj _) (fun j k => hx _) (fun k => hW _),
    add_assoc, add_comm (b _)]

end Cert.GcnLayer

end
-- ==== Proof.RefValue.lean ====
/-
  The reference at the ideal instance, index by index: out[r, q] = x[r, q] + ((Σ_j adj[r, j] · (Σ_k x[j, k] · W[k, q])) + b[q]).
  Its two matrix products are plain sums over the contracted axis (the first product's entry [j, q] feeds the second at
  contraction index j), and the bias, broadcast first to a row and then down the rows, is read at the column alone. This is the
  project-then-aggregate arrangement of the layer.
-/
import proofs.«131385_g28544352649385_cont_9to1_800_17_alg».proof.Proof.Gen.ReferenceIdeal.Read
import proofs.«131385_g28544352649385_cont_9to1_800_17_alg».proof.Proof.GcnLayer

noncomputable section

namespace Cert.ReferenceIdeal.RefValue

open Cert.ReferenceIdeal Cert.ReferenceIdeal.Read Idealize.ShloMosaic Idealize.ShloMosaic.ValueIdx

/-- The aggregation's left operand index: row r of adj, column j. -/
theorem adj_idx (i : S10000x128.Idx) (j : Fin 10000) : lidx_main_v1 i j = ix2 (i 0) j :=
  funext fun a => match a with | ⟨0, _⟩ => rfl | ⟨1, _⟩ => rfl

/-- Inside the aggregation, the projection is read at row j, column q: its left operand is x[j, k], -/
theorem feat_idx (i : S10000x128.Idx) (j : Fin 10000) (k : Fin 128) : lidx_main_v0 (ridx_main_v1 i j) k = ix2 j k :=
  funext fun a => match a with | ⟨0, _⟩ => rfl | ⟨1, _⟩ => rfl

/-- and its right operand W[k, q]. -/
theorem weight_idx (i : S10000x128.Idx) (j : Fin 10000) (k : Fin 128) : ridx_main_v0 (ridx_main_v1 i j) k = ix2 k (i 1) :=
  funext fun a => match a with | ⟨0, _⟩ => rfl | ⟨1, _⟩ => rfl

/-- The twice-broadcast bias is read at the column. -/
theorem bias_idx (i : S10000x128.Idx) : idx_main_v2 (idx_main_v3 i) = ix1 (i 1) :=
  funext fun a => match a with | ⟨0, _⟩ => rfl

/-- The reference's result is the layer, projected first and aggregated second. -/
theorem result_eq (x : FVec Ideal S10000x128 .f32) (adj : FVec Ideal S10000x10000 .f32) (W : FVec Ideal S128x128 .f32)
    (b : FVec Ideal S128 .f32) :
    val_main_v5 (F := Ideal) x adj W b = Cert.GcnLayer.projectThenAggregate x adj W b := by
  funext i
  rw [val_main_v5_apply, val_main_v4_apply, val_main_v1_apply, val_main_v3_apply, val_main_v2_apply]
  simp only [val_main_v0_apply, adj_idx, feat_idx, weight_idx, bias_idx]
  rfl

end Cert.ReferenceIdeal.RefValue

end
-- ==== Proof.KernelEntry.lean ====
/-
  One entry of what the kernel body stores, at the ideal instance. For a row block of adj (400 rows), the whole of x and W,
  the matching 400 rows of x and the bias row, entry [p, q] of the stored block is

    (xrows[p, q] + bias[0, q]) + Σ_k (Σ_j adjblk[p, j] · x[j, k]) · W[k, q]:

  each of the two products into a zero accumulator is the plain sum over its one contracted axis (the first over the 10000
  nodes, the second over the 128 features), and the bias row, cast to its own shape and broadcast down the 400 rows, is read
  at the column alone.
-/
import proofs.«131385_g28544352649385_cont_9to1_800_17_alg».proof.Proof.Gen.KernelIdeal.Skeleton
import proofs.«131385_g28544352649385_cont_9to1_800_17_alg».proof.Proof.GcnLayer
import Idealize.ShloMosaic.Lib.ValueIdx
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx

/-! ## The aggregation adjblk · x : [400, 10000] × [10000, 128] -/

theorem agg_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem agg_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem agg_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry [p, k] of the aggregated block: Σ_j adjblk[p, j] · x[j, k]. -/
theorem aggregate_apply (a : FVec Ideal S400x10000 .f32) (x : FVec Ideal S10000x128 .f32) (i : S400x128.Idx) :
    matmul dot_S400x10000_S10000x128_S400x128_1_0_0_1_n_n none a x (constant (F := Ideal) S400x128 .f32 0x00000000#32) i
      = ∑ j : Fin 10000, a (ix2 (i 0) j) * x (ix2 j (i 1)) := by
  show FloatOps.matmul dot_S400x10000_S10000x128_S400x128_1_0_0_1_n_n none a x (constant (F := Ideal) S400x128 .f32 0x00000000#32) i = _
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx i ((ValueIdx.contrEquiv1 dot_S400x10000_S10000x128_S400x128_1_0_0_1_n_n 10000 rfl rfl).symm k) = ix2 (i 0) k := funext fun d => Fin.ext (by
    match d with
    | ⟨0, _⟩ => exact agg_lhs_0 _ _
    | ⟨1, _⟩ => exact (agg_lhs_1 _ _).trans hk)
  have er : dot_S400x10000_S10000x128_S400x128_1_0_0_1_n_n.rhsIdx i ((ValueIdx.contrEquiv1 dot_S400x10000_S10000x128_S400x128_1_0_0_1_n_n 10000 rfl rfl).symm k) = ix2 k (i 1) := funext fun d => Fin.ext (by
    match d with
    | ⟨0, _⟩ => exact (agg_rhs_0 _ _).trans hk
    | ⟨1, _⟩ => exact agg_rhs_1 _ _)
  rw [el, er]
  rfl

/-! ## The projection (adjblk · x) · W : [400, 128] × [128, 128] -/

theorem proj_lhs_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem proj_lhs_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem proj_rhs_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem proj_rhs_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry [p, q] of the projected block: Σ_k h[p, k] · W[k, q]. -/
theorem project_apply (h : FVec Ideal S400x128 .f32) (W : FVec Ideal S128x128 .f32) (i : S400x128.Idx) :
    matmul dot_S400x128_S128x128_S400x128_1_0_0_1_n_n none h W (constant (F := Ideal) S400x128 .f32 0x00000000#32) i
      = ∑ k : Fin 128, h (ix2 (i 0) k) * W (ix2 k (i 1)) := by
  show FloatOps.matmul dot_S400x128_S128x128_S400x128_1_0_0_1_n_n none h W (constant (F := Ideal) S400x128 .f32 0x00000000#32) i = _
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx i ((ValueIdx.contrEquiv1 dot_S400x128_S128x128_S400x128_1_0_0_1_n_n 128 rfl rfl).symm k) = ix2 (i 0) k := funext fun d => Fin.ext (by
    match d with
    | ⟨0, _⟩ => exact proj_lhs_0 _ _
    | ⟨1, _⟩ => exact (proj_lhs_1 _ _).trans hk)
  have er : dot_S400x128_S128x128_S400x128_1_0_0_1_n_n.rhsIdx i ((ValueIdx.contrEquiv1 dot_S400x128_S128x128_S400x128_1_0_0_1_n_n 128 rfl rfl).symm k) = ix2 k (i 1) := funext fun d => Fin.ext (by
    match d with
    | ⟨0, _⟩ => exact (proj_rhs_0 _ _).trans hk
    | ⟨1, _⟩ => exact proj_rhs_1 _ _)
  rw [el, er]
  rfl

/-! ## The bias row, broadcast down the rows -/

/-- The [1, 128] bias row broadcast to [400, 128] is read at the column. -/
theorem bias_apply (b : FVec Ideal S1x128 .f32) (p : Fin 400) (q : Fin 128) :
    broadcastTo S400x128 b broadcasts_S1x128_S400x128 (ix2 p q) = b (ix2 0 q) :=
  broadcastTo_apply b broadcasts_S1x128_S400x128 (ix2 p q) (ix2 0 q) (fun a => match a with
    | ⟨0, _⟩ => by show (0 : Nat) = if (1 : Nat) = 1 then 0 else (p : Nat); rw [if_pos rfl]
    | ⟨1, _⟩ => by show (q : Nat) = if (128 : Nat) = 1 then 0 else (q : Nat); rw [if_neg (by decide)])

/-! ## The stored entry -/

/-- Entry [p, q] of the block the body stores. -/
theorem stored_apply (a : Vec Ideal S400x10000 .f32) (x : Vec Ideal S10000x128 .f32) (W : Vec Ideal S128x128 .f32)
    (xrows : Vec Ideal S400x128 .f32) (b : Vec Ideal S1x128 .f32) (p : Fin 400) (q : Fin 128) :
    k0_pay1 (F := Ideal) a x W xrows b (ix2 p q)
      = (xrows (ix2 p q) + b (ix2 0 q))
        + ∑ k : Fin 128, (∑ j : Fin 10000, a (ix2 p j) * x (ix2 j k)) * W (ix2 k q) := by
  unfold k0_pay1
  rw [addf_apply, addf_apply, project_apply, shapeCast_self, bias_apply]
  simp only [aggregate_apply]

/-- The stored entry [p, q] is entry [r, q] of the layer (aggregate, then project) once the loaded blocks are known to read
    the arrays where they should: the whole of x and W, row r of adj in the block's row p, row r of x in the row block's
    row p, and the bias at the column. -/
theorem stored_is_layer (a : Vec Ideal S400x10000 .f32) (x : Vec Ideal S10000x128 .f32) (W : Vec Ideal S128x128 .f32)
    (xrows : Vec Ideal S400x128 .f32) (b : Vec Ideal S1x128 .f32)
    (X : Cert.GcnLayer.Sx.Idx → EReal) (A : Cert.GcnLayer.Sadj.Idx → EReal) (Wt : Cert.GcnLayer.Sw.Idx → EReal)
    (B : Cert.GcnLayer.Sb.Idx → EReal) (r : Fin 10000) (p : Fin 400) (q : Fin 128)
    (hx : x = X) (hW : W = Wt) (hrows : xrows (ix2 p q) = X (ix2 r q)) (hb : b (ix2 0 q) = B (ix1 q))
    (ha : ∀ j : Fin 10000, a (ix2 p j) = A (ix2 r j)) :
    k0_pay1 (F := Ideal) a x W xrows b (ix2 p q) = Cert.GcnLayer.aggregateThenProject X A Wt B (ix2 r q) := by
  subst hx hW
  rw [stored_apply, hrows, hb]
  simp only [ha]
  rfl

end Cert.KernelIdeal.Entry

end
-- ==== Proof.KernelBlocks.lean ====
/-
  From the row blocks to the whole result array. The grid has 25 points; point t stages rows 400·t … 400·t + 399 of adj,
  the whole of x, W and the bias row (block index (0, 0) at every point), and writes back rows 400·t … 400·t + 399 of the
  result. The body stores ONE covering block: the payload of its loads, of which the second load of x reads its rows
  400·t … 400·t + 399. So entry [p, q] of the block point t writes back is entry [400·t + p, q] of the layer (aggregate, then
  project) of the four argument arrays; the 25 row blocks tile the 10000 rows (row r is in block r / 400), so the result array
  ends holding the layer everywhere. The bias row the body reads is the host's reshape of the bias vector, read at the column.
  The scalar second result is the host's zero constant, written after the region.
-/
import proofs.«131385_g28544352649385_cont_9to1_800_17_alg».proof.Proof.Gen.KernelIdeal.Frame
import proofs.«131385_g28544352649385_cont_9to1_800_17_alg».proof.Proof.KernelEntry
import proofs.«131385_g28544352649385_cont_9to1_800_17_alg».proof.Proof.GcnLayer
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

theorem hz : (![0, 0] : Fin 2 → Nat) = fun _ => 0 := funext fun a => by fin_cases a <;> rfl

/-- The printed index maps over the grid: x, W and the bias row sit at block (0, 0) at every point; adj and the result move
    down one row block per point; the second load of x starts at row 400·t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0 :=
  (by decide +kernel : ∀ t : Fin grid0.N, _)

/-- Row p of row block t. -/
def rowOf (t : Fin cfg0.N) (p : Fin 400) : Fin 10000 :=
  ⟨400 * t.val + p.val, by have hN : cfg0.N = 25 := N_0; have := t.isLt; have := p.isLt; omega⟩

section AnyInstance

variable {F : FTy → Type} [FloatOps F]
variable (m : (ℓ : Loc nD τ sig) → Buf (Elt F) ℓ)

/-- What the body leaves in the result's staging buffer: its one covering store's payload, whose loads read the whole
    staging buffers of adj's block, x, W and the bias row, and x's rows from the point's row offset. -/
theorem stored_block (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (x0 : Vec F S10000x128 .f32) (x1 : Vec F S128x128 .f32) (x2 : Vec F S1x128 .f32) (x3 : Vec F S400x10000 .f32) :
    out0_A_4 c i a1 h1 a2 h2 a3 h3 a4 h4 a5 h5 x0 x1 x2 x3
      = k0_pay1 x3 x0 x1 (View.ld x0 (Rect.unit (s := S10000x128) (k0_off1 i) S400x128.size (k0_off1_inb i))) x2 := by
  unfold out0_A_4
  rw [View.read_writes_eq_canon _ _ _ (cover0_A_4 c i a1 h1 a2 h2 a3 h3 a4 h4 a5 h5 x0 x1 x2 x3)]
  unfold kernelRun0_A
  dsimp only
  rw [View.canon_unit_zero hz]
  simp only [View.readAt_eq_ld, h1.read_unread, h2.read_unread, h3.read_unread, h4.read_unread,
    View.ld_unit_zero (S := S10000x128) hz, View.ld_unit_zero (S := S128x128) hz, View.ld_unit_zero (S := S1x128) hz,
    View.ld_unit_zero (S := S400x10000) hz]

/-- The arrays as the region finds them, and each window's block at a point, at their literal types. -/
abbrev featArr (c : Dev nD) : Vec F S10000x128 .f32 := V m c main_arg0
abbrev adjArr (c : Dev nD) : Vec F S10000x10000 .f32 := V m c main_arg1
abbrev projArr (c : Dev nD) : Vec F S128x128 .f32 := V m c main_arg2
abbrev biasRowArr (c : Dev nD) : Vec F S1x128 .f32 := V m c main_v0
abbrev featBlk (c : Dev nD) (t : Fin cfg0.N) : Vec F S10000x128 .f32 := iblk m c 0 t
abbrev projBlk (c : Dev nD) (t : Fin cfg0.N) : Vec F S128x128 .f32 := iblk m c 1 t
abbrev biasBlk (c : Dev nD) (t : Fin cfg0.N) : Vec F S1x128 .f32 := iblk m c 2 t
abbrev adjBlk (c : Dev nD) (t : Fin cfg0.N) : Vec F S400x10000 .f32 := iblk m c 3 t

/-- x's block is all of x, at every point. -/
theorem featBlk_eq (c : Dev nD) (t : Fin cfg0.N) : featBlk m c t = featArr m c := by
  obtain ⟨e0, e1, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- W's block is all of W. -/
theorem projBlk_eq (c : Dev nD) (t : Fin cfg0.N) : projBlk m c t = projArr m c := by
  obtain ⟨-, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block is all of it. -/
theorem biasBlk_eq (c : Dev nD) (t : Fin cfg0.N) : biasBlk m c t = biasRowArr m c := by
  obtain ⟨-, -, -, -, e0, e1, -⟩ := idx_facts t
  funext y
  show V m c main_v0 (((cfg0.win 2).blk t).view.emb y) = V m c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Row p of adj's block at point t is row 400·t + p of adj. -/
theorem adjBlk_apply (c : Dev nD) (t : Fin cfg0.N) (p : Fin 400) (j : Fin 10000) :
    adjBlk m c t (ix2 p j) = adjArr m c (ix2 (rowOf t p) j) := by
  obtain ⟨-, -, -, -, -, -, e0, e1, -⟩ := idx_facts t
  show V m c main_arg1 (((cfg0.win 3).blk t).view.emb (ix2 p j)) = V m c main_arg1 (ix2 (rowOf t p) j)
  refine congrArg _ (funext fun a => Fin.ext ?_)
  match a with
  | ⟨0, _⟩ => show win0_3.index t (0 : Fin 2) * 400 + 1 * p.val = 400 * t.val + p.val; omega
  | ⟨1, _⟩ => show win0_3.index t (1 : Fin 2) * 10000 + 1 * j.val = j.val; omega

/-- The body's second load of x, from the point's row offset, reads row 400·t + p of x in its row p. -/
theorem featRows_apply (c : Dev nD) (t : Fin cfg0.N) (p : Fin 400) (q : Fin 128) :
    View.ld (featBlk m c t) (Rect.unit (s := S10000x128) (k0_off1 (grid0.coords t)) S400x128.size (k0_off1_inb (grid0.coords t))) (ix2 p q)
      = featArr m c (ix2 (rowOf t p) q) := by
  obtain ⟨-, -, -, -, -, -, -, -, -, -, e0, e1⟩ := idx_facts t
  refine (congrFun (featBlk_eq m c t) _).trans ?_
  refine congrArg _ (funext fun a => Fin.ext ?_)
  match a with
  | ⟨0, _⟩ => show k0_off1 (grid0.coords t) (0 : Fin 2) + 1 * p.val = 400 * t.val + p.val; omega
  | ⟨1, _⟩ => show k0_off1 (grid0.coords t) (1 : Fin 2) + 1 * q.val = q.val; omega

/-- The bias row as the region finds it: the host's reshape of the bias vector. -/
theorem biasRowArr_eq (c : Dev nD) :
    biasRowArr m c = shapeCast S1x128 (m ((c : Thread nD τ).loc main_arg3)) shapeCasts_S128_S1x128 := by
  show StableHlo.after hostOps0 (fun b => m (c, b)) (Proc.devRef .tc main_v0) = _
  after_results
  rfl

/-- Its entry [0, q] is the bias at q. -/
theorem biasRow_apply (c : Dev nD) (q : Fin 128) :
    biasRowArr m c (ix2 0 q) = m ((c : Thread nD τ).loc main_arg3) (ix1 q) := by
  rw [biasRowArr_eq]
  exact shapeCast_apply _ _ (ix2 0 q) (ix1 q) (by
    rw [Shape.rowMajor_val_one, Shape.rowMajor_val_two]
    show q.val = 0 * 128 + q.val
    omega)

end AnyInstance

section AtIdeal

variable (m : (ℓ : Loc nD τ sig) → Buf (Elt Ideal) ℓ) (ρ : Dev nD → PrngReg)

/-- The layer of the four argument arrays as launched. -/
abbrev layerOf (c : Dev nD) : S10000x128.Idx → EReal :=
  Cert.GcnLayer.aggregateThenProject (m ((c : Thread nD τ).loc main_arg0)) (m ((c : Thread nD τ).loc main_arg1))
    (m ((c : Thread nD τ).loc main_arg2)) (m ((c : Thread nD τ).loc main_arg3))

/-- Entry [p, q] of what point t leaves in the result's staging buffer is entry [400·t + p, q] of the layer. -/
theorem stored_entry (c : Dev nD) (t : Fin cfg0.N) (p : Fin 400) (q : Fin 128) :
    outsAt0 m c t (ix2 p q) = layerOf m c (ix2 (rowOf t p) q) := by
  unfold outsAt0
  refine (congrFun (stored_block c (grid0.coords t) (ms0_0 t) (hs0_0 t) (ms0_1 t) (hs0_1 t) (ms0_2 t) (hs0_2 t)
    (ms0_3 t) (hs0_3 t) (ms0_4 t) (hs0_4 t) (featBlk m c t) (projBlk m c t) (biasBlk m c t) (adjBlk m c t)) (ix2 p q)).trans ?_
  refine Cert.KernelIdeal.Entry.stored_is_layer (adjBlk m c t) (featBlk m c t) (projBlk m c t) _ (biasBlk m c t)
    (m ((c : Thread nD τ).loc main_arg0)) (m ((c : Thread nD τ).loc main_arg1)) (m ((c : Thread nD τ).loc main_arg2))
    (m ((c : Thread nD τ).loc main_arg3)) (rowOf t p) p q ?_ ?_ ?_ ?_ ?_
  · exact (featBlk_eq m c t).trans (V_main_arg0 m c)
  · exact (projBlk_eq m c t).trans (V_main_arg2 m c)
  · exact (featRows_apply m c t p q).trans (congrFun (V_main_arg0 m c) _)
  · exact (congrFun (biasBlk_eq m c t) _).trans (biasRow_apply m c q)
  · intro j
    exact (adjBlk_apply m c t p j).trans (congrFun (V_main_arg1 m c) _)

/-- WHAT POINT t WRITES BACK is block t of the layer. -/
theorem flushed_eq (c : Dev nD) (t : Fin cfg0.N) :
    (dats m 0 c).flushed 4 t = ((cfg0.win 4).blk t).view.read (Elt Ideal) (layerOf m c) := by
  obtain ⟨-, -, -, -, -, -, -, -, e0, e1, -⟩ := idx_facts t
  show (cfg0.win 4).cut (grid0.coords t) ((dats m 0 c).after 4 t) = _
  rw [after0_4]
  funext y
  show outsAt0 m c t y = layerOf m c (((cfg0.win 4).blk t).view.emb y)
  refine ((congrArg (outsAt0 m c t) (eq_ix2 y)).trans (stored_entry m c t (y 0) (y 1))).trans ?_
  refine congrArg _ (funext fun a => Fin.ext ?_)
  match a with
  | ⟨0, _⟩ => show 400 * t.val + (y 0).val = win0_4.index t (0 : Fin 2) * 400 + 1 * (y 0).val; omega
  | ⟨1, _⟩ => show (y 1).val = win0_4.index t (1 : Fin 2) * 128 + 1 * (y 1).val; omega

/-- An index of the result array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]
  exact Iff.rfl

/-- THE RESULT ARRAY after the run is the layer: row r lies in the block of point r / 400. -/
theorem final (c : Dev nD) : (dats m 0 c).arrAt 4 cfg0.N = layerOf m c :=
  (dats m 0 c).arrAt_eq_of_cover 4 (layerOf m c) (fun t _ => flushed_eq m c t) fun i => by
    have hN : cfg0.N = 25 := N_0
    have hi0 : (i 0).val < 10000 := (i 0).isLt
    have hi1 : (i 1).val < 128 := (i 1).isLt
    have ht : (i 0).val / 400 < cfg0.N := by omega
    obtain ⟨-, -, -, -, -, -, -, -, e0, e1, -⟩ := idx_facts ⟨(i 0).val / 400, ht⟩
    have e0' : win0_4.index ⟨(i 0).val / 400, ht⟩ (0 : Fin 2) = (i 0).val / 400 := e0
    refine ⟨⟨(i 0).val / 400, ht⟩, flush0_4 _, ?_⟩
    rw [mem_blk]
    intro a
    match a with
    | ⟨0, _⟩ =>
      show win0_4.index ⟨(i 0).val / 400, ht⟩ (0 : Fin 2) * 400 ≤ (i 0).val
        ∧ (i 0).val < win0_4.index ⟨(i 0).val / 400, ht⟩ (0 : Fin 2) * 400 + 400
      omega
    | ⟨1, _⟩ =>
      show win0_4.index ⟨(i 0).val / 400, ht⟩ (1 : Fin 2) * 128 ≤ (i 1).val
        ∧ (i 1).val < win0_4.index ⟨(i 0).val / 400, ht⟩ (1 : Fin 2) * 128 + 128
      omega

/-- The scalar second result: the host's zero constant, written after the region. -/
theorem tail_cst (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results

/-- The run, read: the result array at the layer of the arguments, the scalar result at zero, the arguments unchanged. -/
theorem run : θ_run defs (onTc (τ := τ) (main (F := Ideal))) ⟨m, fun _ => 0, ρ⟩ fun r => ∀ c : Dev nD,
      r.2.mem ((c : Thread nD τ).loc main_v1) = layerOf m c
      ∧ r.2.mem ((c : Thread nD τ).loc main_cst) = constant (F := Ideal) S_ .f32 0x00000000#32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).2 main_cst (Pipeline.mem_restRefs_of main_cst (by decide) (by decide))).trans (tail_cst m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end AtIdeal

end Cert.KernelIdeal.Blocks

end
-- ==== Proof.FiniteInputs.lean ====
/-
  What the precondition gives: every entry of x, of adj and of W is a real number. The precondition is the conjunction, over
  the four arrays, of "all entries satisfy |v| < +∞" (an and-reduction of the entrywise comparison over the whole array); on
  the extended reals |v| = max v (−v) is below +∞ exactly when v is neither +∞ nor −∞.
-/
import proofs.«131385_g28544352649385_cont_9to1_800_17_alg».proof.Pre_finite_inputs
import proofs.«131385_g28544352649385_cont_9to1_800_17_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-- The scalar shape has one index. -/
instance : Subsingleton S_.Idx := ⟨fun a b => funext fun d => d.elim0⟩

/-- An extended real whose absolute value compares below the f32 pattern of +∞ is a real number. -/
theorem real_of_abs_lt_inf (v : EReal)
    (h : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at h
  unfold Ideal.cmp at h
  induction v using EReal.rec with
  | bot => simp at h
  | coe r => exact ⟨r, rfl⟩
  | top => simp at h

/-- Under the precondition every entry of x, adj and W is a real number. -/
theorem entries_real (x : FVec Ideal S10000x128 .f32) (adj : FVec Ideal S10000x10000 .f32) (W : FVec Ideal S128x128 .f32)
    (b : FVec Ideal S128 .f32) (h : fn (F := Ideal) x adj W b = fun _ => 1#1) :
    (∀ i, ∃ r : ℝ, x i = r) ∧ (∀ i, ∃ r : ℝ, adj i = r) ∧ (∀ i, ∃ r : ℝ, W i = r) := by
  have h0 := congrFun h ix0
  dsimp only [fn, fn_part1] at h0
  obtain ⟨h13, -⟩ := IntOp.andi_eq_one.1 h0
  obtain ⟨h8, hW⟩ := IntOp.andi_eq_one.1 h13
  obtain ⟨hx, hadj⟩ := IntOp.andi_eq_one.1 h8
  exact ⟨fun i => real_of_abs_lt_inf _ (Host.reduce_andi_all _ _ _ _ _ hx i),
    fun i => real_of_abs_lt_inf _ (Host.reduce_andi_all _ _ _ _ _ hadj i),
    fun i => real_of_abs_lt_inf _ (Host.reduce_andi_all _ _ _ _ _ hW i)⟩

end Cert.FiniteInputs

end
-- ==== Proof.lean ====
/-
  A dense graph-convolution layer with a residual: out = x + (adj · (x · W) + b), with a scalar zero as second result.

  The kernel streams adj in 25 row blocks of 400 rows and, for each, aggregates first and projects second:
  out[r, q] = (x[r, q] + b[q]) + Σ_k (Σ_j adj[r, j] · x[j, k]) · W[k, q]; the reference projects first and aggregates second:
  out[r, q] = x[r, q] + ((Σ_j adj[r, j] · (Σ_k x[j, k] · W[k, q])) + b[q]). At the ideal instance every matrix product is a plain
  sum over its contracted axis, so both are the double sum Σ_j Σ_k adj[r, j] · x[j, k] · W[k, q] plus x[r, q] and b[q]. Exchanging
  the two sums and moving a factor across a sum is valid for real entries, which the precondition supplies for x, adj and W
  (over the extended reals it is not: ∞ − ∞); the bias is only ever added, and + is commutative and associative on all extended
  reals, so b's finiteness is not used.

  The frames of the two kernel programs are the generated ones; the reference's frame is its generated run with the results
  dropped; the idealized kernel is the kernel's own text read over the extended reals (no operation was rewritten), so the
  conjunct relating the two is trivial.
-/
import proofs.«131385_g28544352649385_cont_9to1_800_17_alg».proof.Defs
import proofs.«131385_g28544352649385_cont_9to1_800_17_alg».proof.Proof.Gen.Kernel
import proofs.«131385_g28544352649385_cont_9to1_800_17_alg».proof.Proof.Gen.Kernel.Frame
import proofs.«131385_g28544352649385_cont_9to1_800_17_alg».proof.Proof.Gen.KernelIdeal
import proofs.«131385_g28544352649385_cont_9to1_800_17_alg».proof.Proof.Gen.KernelIdeal.Frame
import proofs.«131385_g28544352649385_cont_9to1_800_17_alg».proof.Proof.Gen.ReferenceIdeal
import proofs.«131385_g28544352649385_cont_9to1_800_17_alg».proof.Proof.Gen.ReferenceIdeal.Run
import proofs.«131385_g28544352649385_cont_9to1_800_17_alg».proof.Proof.Gen.ReferenceIdeal.Read
import proofs.«131385_g28544352649385_cont_9to1_800_17_alg».proof.Proof.Gen.Pre_finite_inputs
import proofs.«131385_g28544352649385_cont_9to1_800_17_alg».proof.Proof.GcnLayer
import proofs.«131385_g28544352649385_cont_9to1_800_17_alg».proof.Proof.RefValue
import proofs.«131385_g28544352649385_cont_9to1_800_17_alg».proof.Proof.KernelBlocks
import proofs.«131385_g28544352649385_cont_9to1_800_17_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its four arguments; the frame forgets the two results. -/
theorem frame_reference : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: no operation was rewritten. -/
theorem preserves : Cert.preserves_Kernel_KernelIdeal := trivial

/-- Both programs end with the layer of the (agreeing) arguments in the first result and the zero word in the second: the
    kernel's row blocks tile the aggregate-then-project form, the reference computes the project-then-aggregate form, and on
    real x, adj and W the two are one function. -/
theorem algebraic : Cert.algebraic_KernelIdeal_ReferenceIdeal := by
  intro m ρ m' ρ' hpre hagree
  refine ⟨fun c => Cert.KernelIdeal.Blocks.layerOf m c,
    fun _ => constant (F := Ideal) Cert.KernelIdeal.S_ .f32 0x00000000#32,
    Cert.KernelIdeal.Blocks.run m ρ, ?_⟩
  refine (θ_run Cert.ReferenceIdeal.defs _ _).mono (fun _ h c => ⟨(h c).1.trans ?_, (h c).2.1, (h c).2.2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]
  obtain ⟨hx, hadj, hW⟩ := Cert.FiniteInputs.entries_real _ _ _ _ (hpre c)
  exact (Cert.GcnLayer.aggregateThenProject_eq _ _ _ _ hx hadj hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
